-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S128x512 : Shape := ⟨2, ![128, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : FVec F S4x2048x512 .f32) (main_arg1 : FVec F S128x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  main_v8
-- ==== Kernel.lean ====
abbrev S4x2048x512 : Shape := ⟨3, ![4, 2048, 512]⟩
abbrev S128x512 : Shape := ⟨2, ![128, 512]⟩
abbrev S4x2048x128 : Shape := ⟨3, ![4, 2048, 128]⟩
abbrev S1x2048x512 : Shape := ⟨3, ![1, 2048, 512]⟩
abbrev S1x2048x128 : Shape := ⟨3, ![1, 2048, 128]⟩
abbrev S2048x512 : Shape := ⟨2, ![2048, 512]⟩
abbrev S512x128 : Shape := ⟨2, ![512, 128]⟩
abbrev S2048x128 : Shape := ⟨2, ![2048, 128]⟩
abbrev S4x2048x2048 : Shape := ⟨3, ![4, 2048, 2048]⟩
abbrev S1x512x128 : Shape := ⟨3, ![1, 512, 128]⟩
abbrev S1x512x512 : Shape := ⟨3, ![1, 512, 512]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 4
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S128x512, .f32⟩
  | .hbm, ⟨2, _⟩ => ⟨S4x2048x128, .f32⟩
  | .hbm, ⟨3, _⟩ => ⟨S4x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S128x512, .f32⟩
  | .local _ .vmem, ⟨3, _⟩ => ⟨S1x2048x128, .f32⟩
  | .local _ .vmem, ⟨4, _⟩ => ⟨S1x2048x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x512, .f32⟩
  | .local _ .vmem, ⟨10, _⟩ => ⟨S1x512x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  transposes_S512x128_p1_0_S128x512 : S512x128.Transposes [1, 0] S128x512
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S2048x512_S512x128_S2048x128_1_0_0_1_n_n_wf : DotDims.WF S2048x512 S512x128 S2048x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .f32 = 32 ∨ (Rect.block (s := S4x2048x128) S1x2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x128.size a
  hwx1_0 : ∀ i : grid1.Coords, EltTy.bits .f32 = 32 ∨ (Rect.block (s := S4x2048x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S4x2048x128.size a
  hwx1_1 : ∀ i : grid1.Coords, EltTy.bits .f32 = 32 ∨ (Rect.block (s := S4x2048x128) S1x512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x2048x2048.size a
  hwx1_2 : ∀ i : grid1.Coords, EltTy.bits .f32 = 32 ∨ (Rect.block (s := S4x2048x2048) S1x512x512.size (cc1_transform_2 i) (hinb1_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x512 : Shape := ⟨3, ![4, 2048, 512]⟩
abbrev S128x512 : Shape := ⟨2, ![128, 512]⟩
abbrev S4x2048x128 : Shape := ⟨3, ![4, 2048, 128]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S128x512, .f32⟩
  | .hbm, ⟨2, _⟩ => ⟨S4x2048x128, .f32⟩
  | .hbm, ⟨3, _⟩ => ⟨S4x2048x128, .f32⟩
  | .hbm, ⟨4, _⟩ => ⟨S_, .f32⟩
  | .hbm, ⟨5, _⟩ => ⟨S4x2048, .f32⟩
  | .hbm, ⟨6, _⟩ => ⟨S4x2048x2048, .f32⟩
  | .hbm, ⟨7, _⟩ => ⟨S4x2048x1, .f32⟩
  | .hbm, ⟨8, _⟩ => ⟨S4x1x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x512_S128x512_S4x2048x128_2_1_01_0_n_n_wf : DotDims.WF S4x2048x512 S128x512 S4x2048x128 [2] [1] [0, 1] [0] [] []
  dot_S4x2048x128_S4x2048x128_S4x2048x2048_2_2_1_1_0_0_wf : DotDims.WF S4x2048x128 S4x2048x128 S4x2048x2048 [2] [2] [1] [1] [0] [0]

variable [Facts₀]

def dot_S4x2048x512_S128x512_S4x2048x128_2_1_01_0_n_n : DotDims S4x2048x512 S128x512 S4x2048x128 where
  lhsContracting := [2]
  rhsContracting := [1]
  lhsNonContracting := [0, 1]
  rhsNonContracting := [0]
  lhsBatch := []
  rhsBatch := []
  wf := dot_S4x2048x512_S128x512_S4x2048x128_2_1_01_0_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf

class Facts : Prop extends Facts₀ where

variable [Facts]
-- ==== Proof.Region0B.lean ====
/-
  The first launch (the linear map, one batch row per grid point) as a pipeline certificate, at any float
  instance and at any contents `V` of the core's buffers when the launch is entered.

  Each of the four grid points stages one batch row of the sentence embeddings (window 0), the whole weight matrix
  (window 1, fetched once) and writes one batch row of the projected embeddings (window 2). The body reads both input
  buffers whole and stores one value, the product of the row block with the transposed weights, over the whole output
  buffer; so after the body the output buffer holds that product of the two blocks the point was handed, and the input
  buffers hold what they held.
-/
import proofs.«114774_j16681652977790_1_alg».proof.Proof.Gen.Kernel.Launch
import proofs.«114774_j16681652977790_1_alg».proof.Proof.Gen.Kernel.Skeleton
import proofs.«114774_j16681652977790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did: the block index has not moved since. -/
theorem before0_0_of {c : Dev nD} (dat : Dat τ (Elt F) Unit ℕ (Pipeline.UD sig nD τ) ℕ cfg0 c)
    (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c)
    (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer, as the body addresses it. -/
abbrev rx0 : Rect S1x2048x512 := Rect.unit (s := S1x2048x512) ![0, 0, 0] S1x2048x512.size inb_S1x2048x512_S1x2048x512_0_0_0
abbrev rw0 : Rect S128x512 := Rect.unit (s := S128x512) ![0, 0] S128x512.size inb_S128x512_S128x512_0_0
abbrev ro0 : Rect S1x2048x128 := Rect.unit (s := S1x2048x128) ![0, 0, 0] S1x2048x128.size inb_S1x2048x128_S1x2048x128_0_0_0

/-- What the body leaves in the output buffer: its one store, of the product of what it read. -/
def out0_2 (x0 : Vec F S1x2048x512 .f32) (x1 : Vec F S128x512 .f32) : Vec F S1x2048x128 .f32 :=
  View.canon [⟨ro0, k0_pay1 (View.ld x0 rx0) (View.ld x1 rw0)⟩]

/-- The one store covers the buffer. -/
theorem cover0_2 (p0 : Vec F S1x2048x128 .f32) (y : S1x2048x128.Idx) :
    ∃ pc ∈ ([⟨ro0, p0⟩] : List (View.Piece (Elt F) S1x2048x128 .f32)), y ∈ pc.1.set :=
  View.cover_of_tiled [⟨ro0, p0⟩] S1x2048x128.size (by rfl) y

set_option maxHeartbeats 1000000 in
/-- The body on whole staging memrefs: the inputs' contents are read and kept, the output's is overwritten by the
    product. -/
theorem sound_kernel0 (c : Dev nD) (E : Set ℕ) (i : grid0.Coords) (arg1 : Memref sig .tc .vmem S1x2048x512 .f32) (harg1 : arg1.IsWhole)
    (arg2 : Memref sig .tc .vmem S128x512 .f32) (harg2 : arg2.IsWhole) (arg3 : Memref sig .tc .vmem S1x2048x128 .f32) (harg3 : arg3.IsWhole)
    (x0 : Vec F S1x2048x512 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first launch on core `c`: the arrays as the launch finds them; after the body each input
    buffer at its block and the output buffer at the product of the two input blocks; full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run above applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Region1B.lean ====
/-
  The second launch (the table of pairwise squared distances, one 512 × 512 tile per grid point) as a pipeline
  certificate, at any float instance and at any contents `V` of the core's buffers when the launch is entered.

  The grid is batch × row tile × column tile. Windows 0 and 1 both read the projected embeddings — the row tile and
  the column tile of the same batch row — so one array stands behind two input windows: each window holds one half
  of that array's share. Window 2 writes the tile of the table. The body reads both input buffers whole and stores one
  value over the whole output buffer.
-/
import proofs.«114774_j16681652977790_1_alg».proof.Proof.Gen.Kernel.Launch
import proofs.«114774_j16681652977790_1_alg».proof.Proof.Gen.Kernel.Skeleton
import proofs.«114774_j16681652977790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did: the block index has not moved since. -/
theorem before1_0_of {c : Dev nD} (dat : Dat τ (Elt F) Unit ℕ (Pipeline.UD sig nD τ) ℕ cfg1 c)
    (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c)
    (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the body addresses it. -/
abbrev ri1 : Rect S1x512x128 := Rect.unit (s := S1x512x128) ![0, 0, 0] S1x512x128.size inb_S1x512x128_S1x512x128_0_0_0
abbrev ro1 : Rect S1x512x512 := Rect.unit (s := S1x512x512) ![0, 0, 0] S1x512x512.size inb_S1x512x512_S1x512x512_0_0_0

/-- What the body leaves in the output buffer: its one store, of the tile computed from what it read. -/
def out1_2 (y0 y1 : Vec F S1x512x128 .f32) : Vec F S1x512x512 .f32 :=
  View.canon [⟨ro1, k1_pay1 (View.ld y0 ri1) (View.ld y1 ri1)⟩]

/-- The one store covers the buffer. -/
theorem cover1_2 (p0 : Vec F S1x512x512 .f32) (y : S1x512x512.Idx) :
    ∃ pc ∈ ([⟨ro1, p0⟩] : List (View.Piece (Elt F) S1x512x512 .f32)), y ∈ pc.1.set :=
  View.cover_of_tiled [⟨ro1, p0⟩] S1x512x512.size (by rfl) y

set_option maxHeartbeats 1000000 in
/-- The body on whole staging memrefs: the inputs' contents are read and kept, the output's is overwritten by the
    tile. -/
theorem sound_kernel1 (c : Dev nD) (E : Set ℕ) (i : grid1.Coords) (arg3 : Memref sig .tc .vmem S1x512x128 .f32) (harg3 : arg3.IsWhole)
    (arg4 : Memref sig .tc .vmem S1x512x128 .f32) (harg4 : arg4.IsWhole) (arg5 : Memref sig .tc .vmem S1x512x512 .f32) (harg5 : arg5.IsWhole)
    (y0 y1 : Vec F S1x512x128 .f32) (K : PUnit → sProp 𝕄) :
    iprop(owns (c : Thread nD τ) arg3 fullShare y0 ∗ owns (c : Thread nD τ) arg4 fullShare y1 ∗ (∃ d, owns (c : Thread nD τ) arg5 fullShare d)
        ∗ (iprop(owns (c : Thread nD τ) arg3 fullShare y0 ∗ owns (c : Thread nD τ) arg4 fullShare y1 ∗ owns (c : Thread nD τ) arg5 fullShare (out1_2 y0 y1)) -∗ K ⟨⟩))
      ⊢ wp frame (wpE (defs₀ (F := F)) Variants.none c none) E (cc1__dist_kernel i arg3 harg3 arg4 harg4 arg5 harg5) K := by
  simp only [cc1__dist_kernel_eq_skeleton]; unfold cc1__dist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second launch on core `c`: the arrays as the launch finds them; after the body each input
    buffer at its block and the output buffer at the tile of the two input blocks; the two input windows hold the two
    halves of their common array's share; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the run above applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.SharedArrB.lean ====
/-
  The second launch reads one array through two input windows. Where the launch theorems want one points-to per
  window, the core has one buffer behind both: its full share is cut in two halves at the launch's entry, one per
  window, and the halves are joined again at its exit, the array unchanged (no window on it writes). The third
  window's array is another buffer, held whole.
-/
import proofs.«114774_j16681652977790_1_alg».proof.Proof.Region1B
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The distinct buffers behind the second launch's three arrays are two. -/
theorem arrBufs1_eq (c : Dev nD) (Vc : (b : Ref sig .tc) → Buf (Elt F) ((c : Thread nD τ).loc b)) :
    (Pipeline.arrBufs (Ix := Unit) (Name := ℕ) (U := Pipeline.UD sig nD τ) (Lvl := ℕ) spec1 c Vc : sProp 𝕄)
      = iprop((((c : Thread nD τ).loc main_v0) ↦{fullShare} Vc main_v0) ∗ (((c : Thread nD τ).loc main_v1) ↦{fullShare} Vc main_v1)) := by
  unfold Pipeline.arrBufs
  rw [BI.bigSep_eq_bigSepL_of_eq [main_v0, main_v1] (by decide) (by decide)]; rfl

/-- The launch's arrays, window by window: the two halves of the shared buffer and the output's buffer whole. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2)) := by
  unfold Dat.arrays
  rw [bigSep_W1, (arr_whole1 0).set_eq_univ, (arr_whole1 2).set_eq_univ, share1_0, share1_1, share1_2]

/-- ENTRY: the core's unscoped buffers at `V c` are the launch's arrays at its entry contents and the bypassing rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨H0, H1⟩, Hr⟩
  ihave H := (pointsTo_share (PosShare.mem_left_op_right fullShare)).1 $$ H0
  icases H with ⟨Hl, Hrt⟩
  isplitr [Hr]
  · isplitl [Hl]; · iexact Hl
    isplitl [Hrt]; · iexact Hrt
    iexact H1
  · iexact Hr

/-- EXIT: the launch's arrays as it leaves them and the bypassing rest are the core's unscoped buffers at any contents
    `V'` that keep the shared array, have the output's array at what the write-backs left, and agree with `V c`
    elsewhere. -/
theorem unscopedBufs_of_arrays1 (c : Dev nD) (V' : (b : Ref sig .tc) → Buf (Elt F) ((c : Thread nD τ).loc b))
    (h0 : V' main_v0 = V c main_v0) (h2 : V' main_v1 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  rw [hs, arrBufs1_eq, arrays1_eq, h0, h2,
    (dat1 V c).arrAt_in 0 rfl, (dat1 V c).arrAt_in 1 rfl]
  have hr : (Pipeline.unscopedRest (Ix := Unit) (Name := ℕ) (U := Pipeline.UD sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hrt, H2⟩, Hr⟩
  isplitr [Hr]
  · isplitl [Hl Hrt]
    · iapply (pointsTo_share (PosShare.mem_left_op_right fullShare)).2
      isplitl [Hl]; · iexact Hl
      iexact Hrt
    · iexact H2
  · iexact Hr

end Cert.Kernel.Fr

end
-- ==== Proof.MainRunB.lean ====
/-
  The whole program: the two launches one after the other, from the launch of @main to its return, at any float
  instance.

  Between the items the core holds every one of @main's four arrays whole: at launch the memory's contents; after
  the first launch the projected embeddings' array at what its write-backs left and the rest as before; after the
  second launch the distance table's array at what its write-backs left and the rest as before. Neither launch
  writes an argument, so both arguments end as launched. The final memory is read against the last contents.
-/
import proofs.«114774_j16681652977790_1_alg».proof.Proof.Region0B
import proofs.«114774_j16681652977790_1_alg».proof.Proof.SharedArrB
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays' contents between the items -/

/-- At launch. -/
abbrev W0 (c : Dev nD) : Valuation τ sig (Elt F) := fun b => m (c, b)
abbrev V0 : (c : Dev nD) → (b : Ref sig .tc) → Buf (Elt F) ((c : Thread nD τ).loc b) := fun c b => W0 m c b

/-- After the first launch: the projected embeddings written, the rest as launched. -/
def W1 (c : Dev nD) : Valuation τ sig (Elt F) :=
  Function.update (W0 m c) main_v0 ((dat0 (V0 m) c).arrAt 2 cfg0.N)
abbrev V1 : (c : Dev nD) → (b : Ref sig .tc) → Buf (Elt F) ((c : Thread nD τ).loc b) := fun c b => W1 m c b

theorem W1_self (c : Dev nD) : W1 m c main_v0 = (dat0 (V0 m) c).arrAt 2 cfg0.N := by
  unfold W1; exact Function.update_self ..
theorem W1_of_ne (c : Dev nD) (b : Ref sig .tc) (h : b ≠ main_v0) : W1 m c b = W0 m c b := by
  unfold W1; exact Function.update_of_ne (StableHlo.devRef_ne_of_ne h) _ _

/-- After the second launch: the distance table written, the rest as before it. -/
def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b

theorem W2_self (c : Dev nD) : W2 m c main_v1 = (dat1 (V1 m) c).arrAt 2 cfg1.N := by
  unfold W2; exact Function.update_self ..
theorem W2_of_ne (c : Dev nD) (b : Ref sig .tc) (h : b ≠ main_v1) : W2 m c b = W1 m c b := by
  unfold W2; exact Function.update_of_ne (StableHlo.devRef_ne_of_ne h) _ _

/-- What the first launch leaves in each of its arrays is the next contents there. -/
theorem hF0 (c : Dev nD) : ∀ w : Fin cfg0.W, (dat0 (V0 m) c).arrAt w cfg0.N = V1 m c (Pipeline.arrRef spec0 w)
  | ⟨0, _⟩ => ((dat0 (V0 m) c).arrAt_in 0 rfl _).trans ((A_eq0 (V0 m) c 0).trans (W1_of_ne m c main_arg0 (by decide)).symm)
  | ⟨1, _⟩ => ((dat0 (V0 m) c).arrAt_in 1 rfl _).trans ((A_eq0 (V0 m) c 1).trans (W1_of_ne m c main_arg1 (by decide)).symm)
  | ⟨2, _⟩ => (W1_self m c).symm
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)
theorem hrest1 (c : Dev nD) : ∀ b, b ∉ Finset.univ.image (Pipeline.arrRef spec1) → V2 m c b = V1 m c b :=
  fun b hb => W2_of_ne m c b fun e => hb (Finset.mem_image.mpr ⟨2, Finset.mem_univ _, e.symm⟩)

/-- The last contents, array by array. -/
theorem W2_main_arg0 (c : Dev nD) : W2 m c main_arg0 = m ((c : Thread nD τ).loc main_arg0) :=
  (W2_of_ne m c main_arg0 (by decide)).trans (W1_of_ne m c main_arg0 (by decide))
theorem W2_main_arg1 (c : Dev nD) : W2 m c main_arg1 = m ((c : Thread nD τ).loc main_arg1) :=
  (W2_of_ne m c main_arg1 (by decide)).trans (W1_of_ne m c main_arg1 (by decide))
theorem W2_main_v0 (c : Dev nD) : W2 m c main_v0 = (dat0 (V0 m) c).arrAt 2 cfg0.N :=
  (W2_of_ne m c main_v0 (by decide)).trans (W1_self m c)

/-! ## The proof data family and the thread state -/

abbrev adm : (p : Fin 2) → (pcfgs (F := F) p).Adm := fun p => (cfgs p).toPCfg_adm
/-- Each launch's proof data at the contents it is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the arrays through both launches: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The first launch: entered from the launch contents, left at the contents with the projected embeddings written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from the contents the first left, left at the last contents. Its two input windows'
    common array is dealt in halves at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest spec1 c (V1 m c)) :=
      arrays1_of_unscopedBufs (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs c (V2 m c) : sProp 𝕄) :=
      unscopedBufs_of_arrays1 (V1 m) c (V2 m c) (W2_of_ne m c main_v0 (by decide)) (W2_self m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds the projected embeddings' array at what the first launch's write-backs left, the distance
    table's array at what the second launch's left (it entered from the first's contents), and both arguments as
    launched. -/
theorem run_all : θ_run defs (onTc (τ := τ) (main (F := F))) ⟨m, fun _ => 0, ρ⟩ (fun r => ∀ c : Dev nD,
      r.2.mem ((c.tc : Thread nD τ).loc main_v0) = (dat0 (V0 m) c).arrAt 2 cfg0.N
      ∧ r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v0 (by decide))).trans (W2_main_v0 m c),
       (h c _ (mem_uc main_v1 (by decide))).trans (W2_self m c),
       (h c _ (mem_uc main_arg0 (by decide))).trans (W2_main_arg0 m c),
       (h c _ (mem_uc main_arg1 (by decide))).trans (W2_main_arg1 m c)⟩)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1, (h c).2.2.2⟩) (run_all m ρ)

end Cert.Kernel.Fr

end
-- ==== Proof.Region0.lean ====
/-
  The first launch (the linear map, one batch row per grid point) as a pipeline certificate, at any float
  instance and at any contents `V` of the core's buffers when the launch is entered.

  Each of the four grid points stages one batch row of the sentence embeddings (window 0), the whole weight matrix
  (window 1, fetched once) and writes one batch row of the projected embeddings (window 2). The body reads both input
  buffers whole and stores one value, the product of the row block with the transposed weights, over the whole output
  buffer; so after the body the output buffer holds that product of the two blocks the point was handed, and the input
  buffers hold what they held.
-/
import proofs.«114774_j16681652977790_1_alg».proof.Proof.Gen.KernelIdeal.Launch
import proofs.«114774_j16681652977790_1_alg».proof.Proof.Gen.KernelIdeal.Skeleton
import proofs.«114774_j16681652977790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did: the block index has not moved since. -/
theorem before0_0_of {c : Dev nD} (dat : Dat τ (Elt F) Unit ℕ (Pipeline.UD sig nD τ) ℕ cfg0 c)
    (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c)
    (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer, as the body addresses it. -/
abbrev rx0 : Rect S1x2048x512 := Rect.unit (s := S1x2048x512) ![0, 0, 0] S1x2048x512.size inb_S1x2048x512_S1x2048x512_0_0_0
abbrev rw0 : Rect S128x512 := Rect.unit (s := S128x512) ![0, 0] S128x512.size inb_S128x512_S128x512_0_0
abbrev ro0 : Rect S1x2048x128 := Rect.unit (s := S1x2048x128) ![0, 0, 0] S1x2048x128.size inb_S1x2048x128_S1x2048x128_0_0_0

/-- What the body leaves in the output buffer: its one store, of the product of what it read. -/
def out0_2 (x0 : Vec F S1x2048x512 .f32) (x1 : Vec F S128x512 .f32) : Vec F S1x2048x128 .f32 :=
  View.canon [⟨ro0, k0_pay1 (View.ld x0 rx0) (View.ld x1 rw0)⟩]

/-- The one store covers the buffer. -/
theorem cover0_2 (p0 : Vec F S1x2048x128 .f32) (y : S1x2048x128.Idx) :
    ∃ pc ∈ ([⟨ro0, p0⟩] : List (View.Piece (Elt F) S1x2048x128 .f32)), y ∈ pc.1.set :=
  View.cover_of_tiled [⟨ro0, p0⟩] S1x2048x128.size (by rfl) y

set_option maxHeartbeats 1000000 in
/-- The body on whole staging memrefs: the inputs' contents are read and kept, the output's is overwritten by the
    product. -/
theorem sound_kernel0 (c : Dev nD) (E : Set ℕ) (i : grid0.Coords) (arg1 : Memref sig .tc .vmem S1x2048x512 .f32) (harg1 : arg1.IsWhole)
    (arg2 : Memref sig .tc .vmem S128x512 .f32) (harg2 : arg2.IsWhole) (arg3 : Memref sig .tc .vmem S1x2048x128 .f32) (harg3 : arg3.IsWhole)
    (x0 : Vec F S1x2048x512 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first launch on core `c`: the arrays as the launch finds them; after the body each input
    buffer at its block and the output buffer at the product of the two input blocks; full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run above applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Region1.lean ====
/-
  The second launch (the table of pairwise squared distances, one 512 × 512 tile per grid point) as a pipeline
  certificate, at any float instance and at any contents `V` of the core's buffers when the launch is entered.

  The grid is batch × row tile × column tile. Windows 0 and 1 both read the projected embeddings — the row tile and
  the column tile of the same batch row — so one array stands behind two input windows: each window holds one half
  of that array's share. Window 2 writes the tile of the table. The body reads both input buffers whole and stores one
  value over the whole output buffer.
-/
import proofs.«114774_j16681652977790_1_alg».proof.Proof.Gen.KernelIdeal.Launch
import proofs.«114774_j16681652977790_1_alg».proof.Proof.Gen.KernelIdeal.Skeleton
import proofs.«114774_j16681652977790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did: the block index has not moved since. -/
theorem before1_0_of {c : Dev nD} (dat : Dat τ (Elt F) Unit ℕ (Pipeline.UD sig nD τ) ℕ cfg1 c)
    (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c)
    (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the body addresses it. -/
abbrev ri1 : Rect S1x512x128 := Rect.unit (s := S1x512x128) ![0, 0, 0] S1x512x128.size inb_S1x512x128_S1x512x128_0_0_0
abbrev ro1 : Rect S1x512x512 := Rect.unit (s := S1x512x512) ![0, 0, 0] S1x512x512.size inb_S1x512x512_S1x512x512_0_0_0

/-- What the body leaves in the output buffer: its one store, of the tile computed from what it read. -/
def out1_2 (y0 y1 : Vec F S1x512x128 .f32) : Vec F S1x512x512 .f32 :=
  View.canon [⟨ro1, k1_pay1 (View.ld y0 ri1) (View.ld y1 ri1)⟩]

/-- The one store covers the buffer. -/
theorem cover1_2 (p0 : Vec F S1x512x512 .f32) (y : S1x512x512.Idx) :
    ∃ pc ∈ ([⟨ro1, p0⟩] : List (View.Piece (Elt F) S1x512x512 .f32)), y ∈ pc.1.set :=
  View.cover_of_tiled [⟨ro1, p0⟩] S1x512x512.size (by rfl) y

set_option maxHeartbeats 1000000 in
/-- The body on whole staging memrefs: the inputs' contents are read and kept, the output's is overwritten by the
    tile. -/
theorem sound_kernel1 (c : Dev nD) (E : Set ℕ) (i : grid1.Coords) (arg3 : Memref sig .tc .vmem S1x512x128 .f32) (harg3 : arg3.IsWhole)
    (arg4 : Memref sig .tc .vmem S1x512x128 .f32) (harg4 : arg4.IsWhole) (arg5 : Memref sig .tc .vmem S1x512x512 .f32) (harg5 : arg5.IsWhole)
    (y0 y1 : Vec F S1x512x128 .f32) (K : PUnit → sProp 𝕄) :
    iprop(owns (c : Thread nD τ) arg3 fullShare y0 ∗ owns (c : Thread nD τ) arg4 fullShare y1 ∗ (∃ d, owns (c : Thread nD τ) arg5 fullShare d)
        ∗ (iprop(owns (c : Thread nD τ) arg3 fullShare y0 ∗ owns (c : Thread nD τ) arg4 fullShare y1 ∗ owns (c : Thread nD τ) arg5 fullShare (out1_2 y0 y1)) -∗ K ⟨⟩))
      ⊢ wp frame (wpE (defs₀ (F := F)) Variants.none c none) E (cc1__dist_kernel i arg3 harg3 arg4 harg4 arg5 harg5) K := by
  simp only [cc1__dist_kernel_eq_skeleton]; unfold cc1__dist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second launch on core `c`: the arrays as the launch finds them; after the body each input
    buffer at its block and the output buffer at the tile of the two input blocks; the two input windows hold the two
    halves of their common array's share; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the run above applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.SharedArr.lean ====
/-
  The second launch reads one array through two input windows. Where the launch theorems want one points-to per
  window, the core has one buffer behind both: its full share is cut in two halves at the launch's entry, one per
  window, and the halves are joined again at its exit, the array unchanged (no window on it writes). The third
  window's array is another buffer, held whole.
-/
import proofs.«114774_j16681652977790_1_alg».proof.Proof.Region1
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The distinct buffers behind the second launch's three arrays are two. -/
theorem arrBufs1_eq (c : Dev nD) (Vc : (b : Ref sig .tc) → Buf (Elt F) ((c : Thread nD τ).loc b)) :
    (Pipeline.arrBufs (Ix := Unit) (Name := ℕ) (U := Pipeline.UD sig nD τ) (Lvl := ℕ) spec1 c Vc : sProp 𝕄)
      = iprop((((c : Thread nD τ).loc main_v0) ↦{fullShare} Vc main_v0) ∗ (((c : Thread nD τ).loc main_v1) ↦{fullShare} Vc main_v1)) := by
  unfold Pipeline.arrBufs
  rw [BI.bigSep_eq_bigSepL_of_eq [main_v0, main_v1] (by decide) (by decide)]; rfl

/-- The launch's arrays, window by window: the two halves of the shared buffer and the output's buffer whole. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2)) := by
  unfold Dat.arrays
  rw [bigSep_W1, (arr_whole1 0).set_eq_univ, (arr_whole1 2).set_eq_univ, share1_0, share1_1, share1_2]

/-- ENTRY: the core's unscoped buffers at `V c` are the launch's arrays at its entry contents and the bypassing rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨H0, H1⟩, Hr⟩
  ihave H := (pointsTo_share (PosShare.mem_left_op_right fullShare)).1 $$ H0
  icases H with ⟨Hl, Hrt⟩
  isplitr [Hr]
  · isplitl [Hl]; · iexact Hl
    isplitl [Hrt]; · iexact Hrt
    iexact H1
  · iexact Hr

/-- EXIT: the launch's arrays as it leaves them and the bypassing rest are the core's unscoped buffers at any contents
    `V'` that keep the shared array, have the output's array at what the write-backs left, and agree with `V c`
    elsewhere. -/
theorem unscopedBufs_of_arrays1 (c : Dev nD) (V' : (b : Ref sig .tc) → Buf (Elt F) ((c : Thread nD τ).loc b))
    (h0 : V' main_v0 = V c main_v0) (h2 : V' main_v1 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  rw [hs, arrBufs1_eq, arrays1_eq, h0, h2,
    (dat1 V c).arrAt_in 0 rfl, (dat1 V c).arrAt_in 1 rfl]
  have hr : (Pipeline.unscopedRest (Ix := Unit) (Name := ℕ) (U := Pipeline.UD sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hrt, H2⟩, Hr⟩
  isplitr [Hr]
  · isplitl [Hl Hrt]
    · iapply (pointsTo_share (PosShare.mem_left_op_right fullShare)).2
      isplitl [Hl]; · iexact Hl
      iexact Hrt
    · iexact H2
  · iexact Hr

end Cert.KernelIdeal.Fr

end
-- ==== Proof.MainRun.lean ====
/-
  The whole program: the two launches one after the other, from the launch of @main to its return, at any float
  instance.

  Between the items the core holds every one of @main's four arrays whole: at launch the memory's contents; after
  the first launch the projected embeddings' array at what its write-backs left and the rest as before; after the
  second launch the distance table's array at what its write-backs left and the rest as before. Neither launch
  writes an argument, so both arguments end as launched. The final memory is read against the last contents.
-/
import proofs.«114774_j16681652977790_1_alg».proof.Proof.Region0
import proofs.«114774_j16681652977790_1_alg».proof.Proof.SharedArr
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays' contents between the items -/

/-- At launch. -/
abbrev W0 (c : Dev nD) : Valuation τ sig (Elt F) := fun b => m (c, b)
abbrev V0 : (c : Dev nD) → (b : Ref sig .tc) → Buf (Elt F) ((c : Thread nD τ).loc b) := fun c b => W0 m c b

/-- After the first launch: the projected embeddings written, the rest as launched. -/
def W1 (c : Dev nD) : Valuation τ sig (Elt F) :=
  Function.update (W0 m c) main_v0 ((dat0 (V0 m) c).arrAt 2 cfg0.N)
abbrev V1 : (c : Dev nD) → (b : Ref sig .tc) → Buf (Elt F) ((c : Thread nD τ).loc b) := fun c b => W1 m c b

theorem W1_self (c : Dev nD) : W1 m c main_v0 = (dat0 (V0 m) c).arrAt 2 cfg0.N := by
  unfold W1; exact Function.update_self ..
theorem W1_of_ne (c : Dev nD) (b : Ref sig .tc) (h : b ≠ main_v0) : W1 m c b = W0 m c b := by
  unfold W1; exact Function.update_of_ne (StableHlo.devRef_ne_of_ne h) _ _

/-- After the second launch: the distance table written, the rest as before it. -/
def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b

theorem W2_self (c : Dev nD) : W2 m c main_v1 = (dat1 (V1 m) c).arrAt 2 cfg1.N := by
  unfold W2; exact Function.update_self ..
theorem W2_of_ne (c : Dev nD) (b : Ref sig .tc) (h : b ≠ main_v1) : W2 m c b = W1 m c b := by
  unfold W2; exact Function.update_of_ne (StableHlo.devRef_ne_of_ne h) _ _

/-- What the first launch leaves in each of its arrays is the next contents there. -/
theorem hF0 (c : Dev nD) : ∀ w : Fin cfg0.W, (dat0 (V0 m) c).arrAt w cfg0.N = V1 m c (Pipeline.arrRef spec0 w)
  | ⟨0, _⟩ => ((dat0 (V0 m) c).arrAt_in 0 rfl _).trans ((A_eq0 (V0 m) c 0).trans (W1_of_ne m c main_arg0 (by decide)).symm)
  | ⟨1, _⟩ => ((dat0 (V0 m) c).arrAt_in 1 rfl _).trans ((A_eq0 (V0 m) c 1).trans (W1_of_ne m c main_arg1 (by decide)).symm)
  | ⟨2, _⟩ => (W1_self m c).symm
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)
theorem hrest1 (c : Dev nD) : ∀ b, b ∉ Finset.univ.image (Pipeline.arrRef spec1) → V2 m c b = V1 m c b :=
  fun b hb => W2_of_ne m c b fun e => hb (Finset.mem_image.mpr ⟨2, Finset.mem_univ _, e.symm⟩)

/-- The last contents, array by array. -/
theorem W2_main_arg0 (c : Dev nD) : W2 m c main_arg0 = m ((c : Thread nD τ).loc main_arg0) :=
  (W2_of_ne m c main_arg0 (by decide)).trans (W1_of_ne m c main_arg0 (by decide))
theorem W2_main_arg1 (c : Dev nD) : W2 m c main_arg1 = m ((c : Thread nD τ).loc main_arg1) :=
  (W2_of_ne m c main_arg1 (by decide)).trans (W1_of_ne m c main_arg1 (by decide))
theorem W2_main_v0 (c : Dev nD) : W2 m c main_v0 = (dat0 (V0 m) c).arrAt 2 cfg0.N :=
  (W2_of_ne m c main_v0 (by decide)).trans (W1_self m c)

/-! ## The proof data family and the thread state -/

abbrev adm : (p : Fin 2) → (pcfgs (F := F) p).Adm := fun p => (cfgs p).toPCfg_adm
/-- Each launch's proof data at the contents it is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the arrays through both launches: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The first launch: entered from the launch contents, left at the contents with the projected embeddings written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from the contents the first left, left at the last contents. Its two input windows'
    common array is dealt in halves at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest spec1 c (V1 m c)) :=
      arrays1_of_unscopedBufs (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs c (V2 m c) : sProp 𝕄) :=
      unscopedBufs_of_arrays1 (V1 m) c (V2 m c) (W2_of_ne m c main_v0 (by decide)) (W2_self m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds the projected embeddings' array at what the first launch's write-backs left, the distance
    table's array at what the second launch's left (it entered from the first's contents), and both arguments as
    launched. -/
theorem run_all : θ_run defs (onTc (τ := τ) (main (F := F))) ⟨m, fun _ => 0, ρ⟩ (fun r => ∀ c : Dev nD,
      r.2.mem ((c.tc : Thread nD τ).loc main_v0) = (dat0 (V0 m) c).arrAt 2 cfg0.N
      ∧ r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v0 (by decide))).trans (W2_main_v0 m c),
       (h c _ (mem_uc main_v1 (by decide))).trans (W2_self m c),
       (h c _ (mem_uc main_arg0 (by decide))).trans (W2_main_arg0 m c),
       (h c _ (mem_uc main_arg1 (by decide))).trans (W2_main_arg1 m c)⟩)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1, (h c).2.2.2⟩) (run_all m ρ)

end Cert.KernelIdeal.Fr

end
-- ==== Proof.PayLinear.lean ====
/-
  The first kernel's stored block read at one index, over the extended reals.

  The block is a [2048,512] by [512,128] product into a zero accumulator: its left operand is the
  [1,2048,512] input with the unit axis dropped, its right operand is the [128,512] weights
  transposed, and the [2048,128] product is stored with a unit axis added in front. Entry (0, l, d)
  is therefore the sum over the contracted axis e of x0[0,l,e] * x1[d,e].
-/
import proofs.«114774_j16681652977790_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val
open Idealize.ShloMosaic Idealize.ShloMosaic.ValueIdx Cert.KernelIdeal Cert.KernelIdeal.Gen

/-! ## The operand indices of the product, one axis at a time

The product contracts axis 1 of the left operand with axis 0 of the right one and has no batch axis:
the left operand's axis 0 follows the result's axis 0, the right operand's axis 1 follows the
result's axis 1, and the two contracted axes follow the contraction position's one coordinate. -/

/-- Left operand, axis 0 (free): the result's row. -/
theorem lhs_pay0_0 (j : S2048x128.Idx) (q : dot_S2048x512_S512x128_S2048x128_1_0_0_1_n_n.contr.Idx) :
    (dot_S2048x512_S512x128_S2048x128_1_0_0_1_n_n.lhsIdx j q 0).val = (j 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl

/-- Left operand, axis 1 (contracted): the contraction position. -/
theorem lhs_pay0_1 (j : S2048x128.Idx) (q : dot_S2048x512_S512x128_S2048x128_1_0_0_1_n_n.contr.Idx) :
    (dot_S2048x512_S512x128_S2048x128_1_0_0_1_n_n.lhsIdx j q 1).val = (q ⟨0, by decide⟩).val :=
  dot_S2048x512_S512x128_S2048x128_1_0_0_1_n_n.lhsIdx_val_of_single rfl j q

/-- Right operand, axis 0 (contracted): the contraction position. -/
theorem rhs_pay0_0 (j : S2048x128.Idx) (q : dot_S2048x512_S512x128_S2048x128_1_0_0_1_n_n.contr.Idx) :
    (dot_S2048x512_S512x128_S2048x128_1_0_0_1_n_n.rhsIdx j q 0).val = (q ⟨0, by decide⟩).val :=
  dot_S2048x512_S512x128_S2048x128_1_0_0_1_n_n.rhsIdx_val_of_single rfl j q

/-- Right operand, axis 1 (free): the result's column. -/
theorem rhs_pay0_1 (j : S2048x128.Idx) (q : dot_S2048x512_S512x128_S2048x128_1_0_0_1_n_n.contr.Idx) :
    (dot_S2048x512_S512x128_S2048x128_1_0_0_1_n_n.rhsIdx j q 1).val = (j 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-! ## The stored block at an index -/

/-- entry (0, l, d) of the stored block is the sum over e of x0[0,l,e] * x1[d,e] -/
theorem pay0_apply (x0 : Vec Ideal S1x2048x512 .f32) (x1 : Vec Ideal S128x512 .f32) (l : Fin 2048) (d : Fin 128) :
    k0_pay1 (F := Ideal) x0 x1 (ix3 (0 : Fin 1) l d) = ∑ e : Fin 512, x0 (ix3 (0 : Fin 1) l e) * x1 (ix2 d e) := by
  unfold k0_pay1
  -- the unit axis added in front of the product reads the product at (l, d)
  show shapeCast S1x2048x128
      (matmul dot_S2048x512_S512x128_S2048x128_1_0_0_1_n_n none
        (shapeCast S2048x512 x0 shapeCasts_S1x2048x512_S2048x512)
        (transpose S512x128 [1, 0] x1 transposes_S128x512_p1_0_S512x128)
        (constant (F := Ideal) S2048x128 .f32 0x00000000#32))
      shapeCasts_S2048x128_S1x2048x128 (ix3 (0 : Fin 1) l d) = _
  rw [shapeCast_ab_1ab_apply]
  -- the product into the zero accumulator is the sum over the contraction positions,
  -- re-indexed by the one coordinate of a contraction position
  show FloatOps.matmul dot_S2048x512_S512x128_S2048x128_1_0_0_1_n_n none
        (shapeCast S2048x512 x0 shapeCasts_S1x2048x512_S2048x512)
        (transpose S512x128 [1, 0] x1 transposes_S128x512_p1_0_S512x128)
        (constant (F := Ideal) S2048x128 .f32 0x00000000#32) (ix2 l d) = _
  rw [Ideal.matmul_constant_zero_apply,
    ← Equiv.sum_comp (contrEquiv1 dot_S2048x512_S512x128_S2048x128_1_0_0_1_n_n 512 rfl rfl).symm]
  refine Finset.sum_congr rfl fun e _ => ?_
  have hk := contrEquiv1_symm_val dot_S2048x512_S512x128_S2048x128_1_0_0_1_n_n 512 rfl rfl e
  -- the left operand is read at (l, e)
  have el : dot_S2048x512_S512x128_S2048x128_1_0_0_1_n_n.lhsIdx (ix2 l d) ((contrEquiv1 dot_S2048x512_S512x128_S2048x128_1_0_0_1_n_n 512 rfl rfl).symm e) = ix2 l e := funext fun a => Fin.ext (by
    match a with
    | ⟨0, _⟩ => exact lhs_pay0_0 _ _
    | ⟨1, _⟩ => exact (lhs_pay0_1 _ _).trans hk)
  -- the right operand is read at (e, d)
  have er : dot_S2048x512_S512x128_S2048x128_1_0_0_1_n_n.rhsIdx (ix2 l d) ((contrEquiv1 dot_S2048x512_S512x128_S2048x128_1_0_0_1_n_n 512 rfl rfl).symm e) = ix2 e d := funext fun a => Fin.ext (by
    match a with
    | ⟨0, _⟩ => exact (rhs_pay0_0 _ _).trans hk
    | ⟨1, _⟩ => exact rhs_pay0_1 _ _)
  -- dropping the unit axis reads x0 at (0, l, e); the transpose reads x1 at (d, e)
  rw [el, er, shapeCast_1ab_ab_apply, transpose_ix2_apply]

end Cert.KernelIdeal.Val

end
-- ==== Proof.Spec.lean ====
/-
  What both programs compute, as functions of the two argument arrays over the extended reals.

  `dep` is the linear map: entry (b, l, d) is the sum over e of emb[b, l, e] · W[d, e].
  `dist` is the table of pairwise squared distances of the rows of a batch, in the expanded form
  |u|² + |v|² − 2·⟨u, v⟩: entry (b, i, j) is (Σ_d y[b,i,d]² + Σ_d y[b,j,d]²) − 2 · Σ_d y[b,i,d]·y[b,j,d].
  The factor 2 is kept as the float word both programs print.
-/
import Idealize.ShloMosaic.PureOps.Ideal
import Idealize.ShloMosaic.Lib.ValueIdx

noncomputable section

namespace Cert.Spec

open Idealize.ShloMosaic Idealize.ShloMosaic.ValueIdx

abbrev SEmb : Shape := ⟨3, ![4, 2048, 512]⟩
abbrev SWt : Shape := ⟨2, ![128, 512]⟩
abbrev SDep : Shape := ⟨3, ![4, 2048, 128]⟩
abbrev SDist : Shape := ⟨3, ![4, 2048, 2048]⟩

/-- The word of the float 2. -/
abbrev two : EReal := Ideal.ofBits .f32 0x40000000#32

/-- One entry of the linear map. -/
def depAt (x : SEmb.Idx → EReal) (w : SWt.Idx → EReal) (b : Fin 4) (l : Fin 2048) (d : Fin 128) : EReal :=
  ∑ e : Fin 512, x (ix3 b l e) * w (ix2 d e)

/-- The linear map, the whole array. -/
def dep (x : SEmb.Idx → EReal) (w : SWt.Idx → EReal) : SDep.Idx → EReal :=
  fun i => depAt x w (i 0) (i 1) (i 2)

/-- The squared norm of row (b, l). -/
def sqAt (y : SDep.Idx → EReal) (b : Fin 4) (l : Fin 2048) : EReal :=
  ∑ d : Fin 128, y (ix3 b l d) * y (ix3 b l d)

/-- The inner product of rows (b, i) and (b, j). -/
def gramAt (y : SDep.Idx → EReal) (b : Fin 4) (i j : Fin 2048) : EReal :=
  ∑ d : Fin 128, y (ix3 b i d) * y (ix3 b j d)

/-- One entry of the distance table. -/
def distAt (y : SDep.Idx → EReal) (b : Fin 4) (i j : Fin 2048) : EReal :=
  (sqAt y b i + sqAt y b j) - two * gramAt y b i j

/-- The distance table, the whole array. -/
def dist (y : SDep.Idx → EReal) : SDist.Idx → EReal :=
  fun i => distAt y (i 0) (i 1) (i 2)

theorem dep_apply (x : SEmb.Idx → EReal) (w : SWt.Idx → EReal) (b : Fin 4) (l : Fin 2048) (d : Fin 128) :
    dep x w (ix3 b l d) = depAt x w b l d := rfl

theorem dist_apply (y : SDep.Idx → EReal) (b : Fin 4) (i j : Fin 2048) :
    dist y (ix3 b i j) = distAt y b i j := rfl

end Cert.Spec

end
-- ==== Proof.Blocks0.lean ====
/-
  From blocks to the array, for the first launch's output, over the extended reals.

  The launch has four grid points. Point t is handed batch row t of the sentence embeddings ([1,2048,512] of
  [4,2048,512]) and the whole weight matrix ([128,512]), and writes batch row t of the projected embeddings
  ([1,2048,128] of [4,2048,128]). Entry (0, l, d) of the block a point writes is the sum over e of
  block0[0,l,e] * block1[d,e]; block0[0,l,e] is emb[t,l,e] and block1[d,e] is W[d,e], so the written block is batch
  row t of the linear map of the two argument arrays. Batch row b of the output is written by point b, so the four
  written blocks fill the array and it ends holding the linear map.
-/
import proofs.«114774_j16681652977790_1_alg».proof.Proof.Region0
import proofs.«114774_j16681652977790_1_alg».proof.Proof.PayLinear
import proofs.«114774_j16681652977790_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen Cert.KernelIdeal.Fr
open Idealize.ShloMosaic.Pipeline (Dat)

namespace Lin

/-! ## The zero offsets and the index maps -/

/-- the three zero offsets of a whole rank-3 block -/
theorem zero3 : (![0, 0, 0] : Fin 3 → Nat) = fun _ => 0 := funext fun a => by fin_cases a <;> rfl
/-- the two zero offsets of a whole rank-2 block -/
theorem zero2 : (![0, 0] : Fin 2 → Nat) = fun _ => 0 := funext fun a => by fin_cases a <;> rfl

/-- The index maps at each of the four grid points: the embeddings' block and the output's block are at batch
    row t and at 0 on the two other axes; the weights' block is at (0, 0). -/
theorem maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-! ## One entry of a written block -/

/-- If block x0 is batch row b of the array A0 and block x1 is the array A1, entry (0, l, d) of the product block
    is entry (b, l, d) of the linear map of A0 and A1: both are the sum over e of the same products. -/
theorem linear_of_rows (x0 : Vec Ideal S1x2048x512 .f32) (x1 : Vec Ideal S128x512 .f32)
    (A0 : Cert.Spec.SEmb.Idx → EReal) (A1 : Cert.Spec.SWt.Idx → EReal) (b : Fin 4)
    (h0 : ∀ (l : Fin 2048) (e : Fin 512), x0 (ix3 (0 : Fin 1) l e) = A0 (ix3 b l e))
    (h1 : ∀ (d : Fin 128) (e : Fin 512), x1 (ix2 d e) = A1 (ix2 d e))
    (l : Fin 2048) (d : Fin 128) :
    k0_pay1 (F := Ideal) x0 x1 (ix3 (0 : Fin 1) l d) = Cert.Spec.dep A0 A1 (ix3 b l d) := by
  rw [pay0_apply, Cert.Spec.dep_apply]
  unfold Cert.Spec.depAt
  exact Finset.sum_congr rfl fun e _ => by rw [h0, h1]

variable (V : (c : Dev nD) → (b : Ref sig .tc) → Buf (Elt Ideal) ((c : Thread nD τ).loc b))

/-! ## The blocks a point is handed, read off their arrays

A block's coordinate on an axis is the block index times the block's extent plus the coordinate inside the block. -/

/-- The embeddings' block at point t is batch row t: entry (0, l, e) is emb[b, l, e] with b = t. -/
theorem embRow_apply (c : Dev nD) (t : Fin cfg0.N) (b : Fin 4) (hb : b.val = t.val) (l : Fin 2048) (e : Fin 512) :
    (iblk0 V c 0 t : Vec Ideal S1x2048x512 .f32) (ix3 (0 : Fin 1) l e)
      = (V c main_arg0 : S4x2048x512.Idx → EReal) (ix3 b l e) := by
  obtain ⟨e0, e1, e2, -⟩ := maps t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 2048 + 1 * l.val = l.val; omega
  | ⟨2, _⟩ => show win0_0.index t (2 : Fin 3) * 512 + 1 * e.val = e.val; omega

/-- The weights' block at any point is the whole matrix: entry (d, e) is W[d, e]. -/
theorem weights_apply (c : Dev nD) (t : Fin cfg0.N) (d : Fin 128) (e : Fin 512) :
    (iblk0 V c 1 t : Vec Ideal S128x512 .f32) (ix2 d e)
      = (V c main_arg1 : S128x512.Idx → EReal) (ix2 d e) := by
  obtain ⟨-, -, -, e0, e1, -⟩ := maps t
  unfold iblk0
  rw [View.read_apply]
  show V c main_arg1 _ = V c main_arg1 _
  congr 1
  funext a
  apply Fin.ext
  match a with
  | ⟨0, _⟩ => show win0_1.index t (0 : Fin 2) * 128 + 1 * d.val = d.val; omega
  | ⟨1, _⟩ => show win0_1.index t (1 : Fin 2) * 512 + 1 * e.val = e.val; omega

/-- The output's block at point t sits at batch row t: its entry (0, l, d) is the array's entry (b, l, d) with
    b = t. -/
theorem outRow_emb (t : Fin cfg0.N) (b : Fin 4) (hb : b.val = t.val) (l : Fin 2048) (d : Fin 128) :
    (((cfg0.win 2).blk t).view.emb (ix3 (0 : Fin 1) l d) : S4x2048x128.Idx) = ix3 b l d := by
  obtain ⟨-, -, -, -, -, e0, e1, e2⟩ := maps t
  funext a
  apply Fin.ext
  match a with
  | ⟨0, _⟩ => show win0_2.index t (0 : Fin 3) * 1 + 1 * 0 = b.val; omega
  | ⟨1, _⟩ => show win0_2.index t (1 : Fin 3) * 2048 + 1 * l.val = l.val; omega
  | ⟨2, _⟩ => show win0_2.index t (2 : Fin 3) * 128 + 1 * d.val = d.val; omega

/-! ## What a point writes back -/

/-- What point t writes back is batch row t of the linear map of the two argument arrays as the launch found
    them: the one store leaves the product of the two loaded blocks, each load reads its whole block, and entry by
    entry the product of batch row t of the embeddings with the weights is the linear map at batch row t. -/
theorem written_eq (c : Dev nD) (t : Fin cfg0.N) :
    (dat0 V c).flushed 2 t
      = ((cfg0.win 2).blk t).view.read (Elt Ideal) (Cert.Spec.dep (V c main_arg0) (V c main_arg1)) := by
  show (cfg0.win 2).cut (grid0.coords t) ((dat0 V c).after 2 t) = _
  rw [after0_2]
  unfold out0_2
  rw [View.canon_unit_zero zero3]
  simp only [View.ld_unit_zero (S := S1x2048x512) zero3, View.ld_unit_zero (S := S128x512) zero2]
  have hN : t.val < 4 := t.isLt
  funext j
  obtain ⟨z, l, d, rfl⟩ : ∃ (z : Fin 1) (l : Fin 2048) (d : Fin 128), j = ix3 z l d := ⟨j 0, j 1, j 2, eq_ix3 j⟩
  obtain rfl : z = 0 := Subsingleton.elim _ _
  rw [View.read_apply, outRow_emb t ⟨t.val, hN⟩ rfl l d]
  exact linear_of_rows (iblk0 V c 0 t) (iblk0 V c 1 t) (V c main_arg0) (V c main_arg1) ⟨t.val, hN⟩
    (embRow_apply V c t ⟨t.val, hN⟩ rfl) (weights_apply V c t) l d

/-! ## The written blocks fill the array -/

/-- An index of the output array is in point t's block iff on each axis its coordinate is in the block's range. -/
theorem mem_outRow (t : Fin cfg0.N) (i : S4x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole main_v0).slice (win0_2.rect t)).set ↔ _
  rw [View.set_slice_whole, Rect.mem_set_unit]
  exact Iff.rfl

/-- An index whose batch coordinate is t is in point t's block: the block is all of that batch row. -/
theorem mem_outRow_of_batch (t : Fin cfg0.N) (i : S4x2048x128.Idx) (ht : t.val = (i 0).val) :
    i ∈ ((cfg0.win 2).blk t).view.set := by
  have hi1 : (i 1).val < 2048 := (i 1).isLt
  have hi2 : (i 2).val < 128 := (i 2).isLt
  obtain ⟨-, -, -, -, -, e0, e1, e2⟩ := maps t
  rw [mem_outRow]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- Every index of the output array is in a written block: the point that is its batch coordinate writes it. -/
theorem outRows_cover (i : S4x2048x128.Idx) :
    ∃ t : Fin cfg0.N, (cfg0.win 2).flush t = true ∧ i ∈ ((cfg0.win 2).blk t).view.set :=
  ⟨⟨(i 0).val, (i 0).isLt⟩, flush0_2 _, mem_outRow_of_batch _ i rfl⟩

end Lin

/-- after the first launch its output array holds the linear map of the two argument arrays as the launch found them -/
theorem final0 (V : (c : Dev nD) → (b : Ref sig .tc) → Buf (Elt Ideal) ((c : Thread nD τ).loc b)) (c : Dev nD) :
    (dat0 V c).arrAt 2 cfg0.N = Cert.Spec.dep (V c main_arg0) (V c main_arg1) :=
  (dat0 V c).arrAt_eq_of_cover 2 (Cert.Spec.dep (V c main_arg0) (V c main_arg1))
    (fun t _ => Lin.written_eq V c t) Lin.outRows_cover

end Cert.KernelIdeal.Val

end
-- ==== Proof.PayDist.lean ====
/-
  The second kernel's stored block read at an index, at the ideal values.

  The body takes two [1, 512, 128] blocks y0 (the rows i) and y1 (the rows j), views each as a [512, 128] matrix, and
  stores, as a [1, 512, 512] block, the matrix whose entry (i, j) is
      (Σ_d y0[0,i,d]² + Σ_d y1[0,j,d]²) − 2 · Σ_d y0[0,i,d] · y1[0,j,d].
  Each operation of the body that is not pointwise is read at an index written by coordinates: the unit-axis views, the
  lane sum (a sum over the 128 lane coordinates, its zero start being the neutral element of the sum), the column
  forms [a] → [a, 1], [a, 1] → [1, a] and [a, 1] → [a, b], the transposes, the row broadcast, and the matrix
  product into the zero matrix (a sum over its one contracted axis, re-indexed through that axis's coordinate). The
  pointwise operations read through at the extended reals by definition. The last theorem composes them.
-/
import proofs.«114774_j16681652977790_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-! ## The column forms of a kept unit axis, at any extents -/

section Column
variable {α : Type}

/-- An [a] vector cast to an [a, 1] column reads, at (i, u), the vector at i: the two row-major positions are
    i and i · 1 + u with u = 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at (p, 0): the first axis is kept (or is a unit
    axis, where p is 0 anyway), the second is the operand's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's layout operations at literal coordinates

Stated for any element type: a layout operation moves elements and does not look at them. -/

section Layout
variable {α : Type}

/-- A [1, 512, 128] block viewed as a matrix reads, at (i, d), the block at (0, i, d). -/
theorem rows_apply (y : S1x512x128.Idx → α) (i : Fin 512) (d : Fin 128) :
    shapeCast S512x128 y shapeCasts_S1x512x128_S512x128 (ix2 i d) = y (ix3 (0 : Fin 1) i d) :=
  shapeCast_1ab_ab_apply y shapeCasts_S1x512x128_S512x128 i d

/-- The [512] vector of lane sums kept as a [512, 1] column reads, at (i, u), the vector at i. -/
theorem keep_apply (v : S512.Idx → α) (i : Fin 512) (u : Fin 1) :
    shapeCast S512x1 v shapeCasts_S512_S512x1 (ix2 i u) = v (ix1 i) :=
  shapeCast_a_a1_apply v shapeCasts_S512_S512x1 i u

/-- The column transposed to a [1, 512] row reads, at (u, j), the column at (j, u). -/
theorem row_apply (w : S512x1.Idx → α) (u : Fin 1) (j : Fin 512) :
    transpose S1x512 [1, 0] w transposes_S512x1_p1_0_S1x512 (ix2 u j) = w (ix2 j u) :=
  transpose_ix2_apply w transposes_S512x1_p1_0_S1x512 u j

/-- The [512, 128] matrix transposed reads, at (d, j), the matrix at (j, d). -/
theorem tr_apply (x : S512x128.Idx → α) (d : Fin 128) (j : Fin 512) :
    transpose S128x512 [1, 0] x transposes_S512x128_p1_0_S128x512 (ix2 d j) = x (ix2 j d) :=
  transpose_ix2_apply x transposes_S512x128_p1_0_S128x512 d j

/-- The column broadcast over the 512 columns reads, at (i, j), the column at (i, 0). -/
theorem bcol_apply (w : S512x1.Idx → α) (i j : Fin 512) :
    broadcastTo S512x512 w broadcasts_S512x1_S512x512 (ix2 i j) = w (ix2 i (0 : Fin 1)) :=
  broadcastTo_a1_ab_apply w broadcasts_S512x1_S512x512 i j

/-- The row broadcast over the 512 rows reads, at (i, j), the row at (0, j). -/
theorem brow_apply (r : S1x512.Idx → α) (i j : Fin 512) :
    broadcastTo S512x512 r broadcasts_S1x512_S512x512 (ix2 i j) = r (ix2 (0 : Fin 1) j) :=
  broadcastTo_1b_ab_apply r broadcasts_S1x512_S512x512 i j

/-- The [512, 512] result stored as a [1, 512, 512] block reads, at (u, i, j), the result at (i, j). -/
theorem block_apply (m : S512x512.Idx → α) (u : Fin 1) (i j : Fin 512) :
    shapeCast S1x512x512 m shapeCasts_S512x512_S1x512x512 (ix3 u i j) = m (ix2 i j) :=
  shapeCast_ab_1ab_apply m shapeCasts_S512x512_S1x512x512 u i j

end Layout

/-! ## The lane sum of squares -/

/-- The lane sum of the squares of a [512, 128] matrix reads, at i, the sum over the 128 lanes of row i's squares: the
    reduction over one axis from the sum's neutral element is the sum over that axis's coordinates, and the index it
    inserts the lane d into is (i, d). -/
theorem sq_apply (x : FVec Ideal S512x128 .f32) (i : Fin 512) :
    multiReduction (F := Ideal) .add [1] S512 (mulf x x) 0x00000000#32 reduces_S512x128_S512 (.inl rfl) rfl (ix1 i)
      = ∑ d : Fin 128, x (ix2 i d) * x (ix2 i d) := by
  refine (Ideal.multiReduction_add_single (mulf x x) _ reduces_S512x128_S512 (.inl rfl) rfl (ix1 i)).trans ?_
  refine Finset.sum_congr rfl fun (d : Fin 128) _ => ?_
  have e : reduces_S512x128_S512.lift (ix1 i) d = ix2 i d := funext fun a => Fin.ext (by
    match a with
    | ⟨0, _⟩ => rfl
    | ⟨1, _⟩ => rfl)
  exact congrArg (fun k => x k * x k) e

/-! ## The matrix product into the zero matrix

The dimension numbers contract the left operand's axis 1 with the right operand's axis 0 and keep the left's axis 0 and
the right's axis 1. Each operand index's coordinates, one lemma per literal axis: a kept axis reads the result index's
coordinate, the contracted axis the contraction index's one coordinate. -/

theorem lhs_gram_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhs_gram_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem rhs_gram_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem rhs_gram_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- The product of a [512, 128] and a [128, 512] matrix into the zero matrix reads, at (i, j), the sum over the 128
    contracted coordinates d of the left at (i, d) times the right at (d, j): the zero it accumulates into is the
    extended real 0, and the sum over the contraction index is re-indexed through its one coordinate. -/
theorem gram_apply (x : FVec Ideal S512x128 .f32) (z : FVec Ideal S128x512 .f32) (i j : Fin 512) :
    matmul dot_S512x128_S128x512_S512x512_1_0_0_1_n_n none x z (constant (F := Ideal) S512x512 .f32 0x00000000#32) (ix2 i j)
      = ∑ d : Fin 128, x (ix2 i d) * z (ix2 d j) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 i j) ((contrEquiv1 dot_S512x128_S128x512_S512x512_1_0_0_1_n_n 128 rfl rfl).symm k) = ix2 i k := funext fun a => Fin.ext (by
    match a with
    | ⟨0, _⟩ => exact lhs_gram_0 _ _
    | ⟨1, _⟩ => exact (lhs_gram_1 _ _).trans hk)
  have er : dot_S512x128_S128x512_S512x512_1_0_0_1_n_n.rhsIdx (ix2 i j) ((contrEquiv1 dot_S512x128_S128x512_S512x512_1_0_0_1_n_n 128 rfl rfl).symm k) = ix2 k j := funext fun a => Fin.ext (by
    match a with
    | ⟨0, _⟩ => exact (rhs_gram_0 _ _).trans hk
    | ⟨1, _⟩ => exact rhs_gram_1 _ _)
  rw [el, er]

/-- The same with the right operand the transpose of a [512, 128] matrix z: entry (i, j) is the sum over d of the left
    at (i, d) times z at (j, d), the inner product of row i of the left with row j of z. -/
theorem gramT_apply (x z : FVec Ideal S512x128 .f32) (i j : Fin 512) :
    matmul dot_S512x128_S128x512_S512x512_1_0_0_1_n_n none x (transpose S128x512 [1, 0] z transposes_S512x128_p1_0_S128x512)
        (constant (F := Ideal) S512x512 .f32 0x00000000#32) (ix2 i j)
      = ∑ d : Fin 128, x (ix2 i d) * z (ix2 j d) := by
  rw [gram_apply]
  refine Finset.sum_congr rfl fun d _ => ?_
  rw [tr_apply]

/-! ## The stored block at an index -/

/-- entry (0, i, j) of the stored block: (sum_d y0[0,i,d]^2 + sum_d y1[0,j,d]^2) - 2 * sum_d y0[0,i,d] * y1[0,j,d] -/
theorem pay1_apply (y0 y1 : Vec Ideal S1x512x128 .f32) (i j : Fin 512) :
    k1_pay1 (F := Ideal) y0 y1 (ix3 (0 : Fin 1) i j)
      = ((∑ d : Fin 128, y0 (ix3 (0 : Fin 1) i d) * y0 (ix3 (0 : Fin 1) i d)) + (∑ d : Fin 128, y1 (ix3 (0 : Fin 1) j d) * y1 (ix3 (0 : Fin 1) j d)))
        - Ideal.ofBits .f32 0x40000000#32 * (∑ d : Fin 128, y0 (ix3 (0 : Fin 1) i d) * y1 (ix3 (0 : Fin 1) j d)) := by
  unfold k1_pay1
  dsimp only
  rw [block_apply, subf_apply, addf_apply, mulf_apply, broadcast_apply, bcol_apply, brow_apply, row_apply,
    keep_apply, keep_apply, sq_apply, sq_apply, gramT_apply]
  simp only [rows_apply]
  rfl

end Cert.KernelIdeal.Val

end
-- ==== Proof.Blocks1.lean ====
/-
  From the tiles to the array: what the second launch leaves in its output array, at the ideal values.

  The grid's point t has coordinates (batch b, row tile p, column tile q) = (t / 16, t / 4 % 4, t % 4). Its first input
  block is rows p·512 … p·512 + 511 of batch b of the projected embeddings, its second input block rows q·512 … of the
  same batch, and its output block is tile (b, p, q) of the table — these relations between the three index maps are
  decided once over the 64 points. So entry (0, i, j) of what the point stores is, by the payload read at an index,
      (Σ_d y[b, p·512+i, d]² + Σ_d y[b, q·512+j, d]²) − 2 · Σ_d y[b, p·512+i, d] · y[b, q·512+j, d],
  which is entry (b, p·512+i, q·512+j) of the distance table of y: every point writes back its tile of ONE whole-array
  function of y. Entry (b, r, s) of the table lies in the tile of the point b·16 + (r / 512)·4 + s / 512, and every
  point writes its tile back, so the tiles cover the array and the array ends holding the distance table.
-/
import proofs.«114774_j16681652977790_1_alg».proof.Proof.Region1
import proofs.«114774_j16681652977790_1_alg».proof.Proof.PayDist
import proofs.«114774_j16681652977790_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen Cert.KernelIdeal.Fr
open Idealize.ShloMosaic.Pipeline (Dat)

/-- The zero offsets of a whole staging buffer. -/
theorem dist_offsets_zero : (![0, 0, 0] : Fin 3 → Nat) = fun _ => 0 := funext fun a => by fin_cases a <;> rfl

/-- The three index maps over the grid: point t's output tile is (t / 16, t / 4 % 4, t % 4); the first input block is
    the output's batch and row tile, the second the output's batch and column tile; both start at lane 0. -/
theorem dist_tile_of_point : ∀ t : Fin cfg1.N,
    win1_2.index t (0 : Fin 3) = t.val / 16 ∧ win1_2.index t (1 : Fin 3) = t.val / 4 % 4 ∧ win1_2.index t (2 : Fin 3) = t.val % 4
    ∧ win1_0.index t (0 : Fin 3) = win1_2.index t (0 : Fin 3) ∧ win1_0.index t (1 : Fin 3) = win1_2.index t (1 : Fin 3) ∧ win1_0.index t (2 : Fin 3) = 0
    ∧ win1_1.index t (0 : Fin 3) = win1_2.index t (0 : Fin 3) ∧ win1_1.index t (1 : Fin 3) = win1_2.index t (2 : Fin 3) ∧ win1_1.index t (2 : Fin 3) = 0 :=
  (by decide +kernel : ∀ t : Fin grid1.N, _)

/-- One entry of a tile: when the first block's row i is row r of batch b and the second block's row j is row s of
    batch b, the stored value at (i, j) is entry (b, r, s) of the distance table. -/
theorem dist_tile_entry (A : Cert.Spec.SDep.Idx → EReal) (y0 y1 : Vec Ideal S1x512x128 .f32) (b : Fin 4) (r s : Fin 2048) (i j : Fin 512)
    (h0 : ∀ d : Fin 128, y0 (ix3 (0 : Fin 1) i d) = A (ix3 b r d))
    (h1 : ∀ d : Fin 128, y1 (ix3 (0 : Fin 1) j d) = A (ix3 b s d)) :
    k1_pay1 (F := Ideal) y0 y1 (ix3 (0 : Fin 1) i j) = Cert.Spec.distAt A b r s := by
  rw [pay1_apply]
  unfold Cert.Spec.distAt Cert.Spec.sqAt Cert.Spec.gramAt
  simp only [h0, h1]

variable (V : (c : Dev nD) → (b : Ref sig .tc) → Buf (Elt Ideal) ((c : Thread nD τ).loc b))

/-- What point t writes back is tile t of the distance table of the projected embeddings as the launch found them:
    the stored block at (0, i, j) is the payload of the two input blocks, whose rows i and j are rows
    p·512 + i and q·512 + j of the output tile's batch. -/
theorem dist_flushed_eq (c : Dev nD) (t : Fin cfg1.N) :
    (dat1 V c).flushed 2 t = ((cfg1.win 2).blk t).view.read (Elt Ideal) (Cert.Spec.dist (V c main_v0)) := by
  show (cfg1.win 2).cut (grid1.coords t) ((dat1 V c).after 2 t) = _
  rw [after1_2]
  unfold out1_2
  rw [View.canon_unit_zero dist_offsets_zero]
  simp only [View.ld_unit_zero (S := S1x512x128) dist_offsets_zero]
  obtain ⟨e20, e21, e22, e00, e01, e02, e10, e11, e12⟩ := dist_tile_of_point t
  funext y
  have hy : win1_2.xinj (grid1.coords t) y = ix3 (0 : Fin 1) ⟨(y 1).val, (y 1).isLt⟩ ⟨(y 2).val, (y 2).isLt⟩ := by
    funext a; apply Fin.ext
    match a with
    | ⟨0, _⟩ => show (y 0).val = 0; have h : (y 0).val < 1 := (y 0).isLt; omega
    | ⟨1, _⟩ => rfl
    | ⟨2, _⟩ => rfl
  show k1_pay1 (iblk1 V c 0 t) (iblk1 V c 1 t) (win1_2.xinj (grid1.coords t) y)
    = Cert.Spec.distAt (V c main_v0) (((cfg1.win 2).blk t).view.emb y 0) (((cfg1.win 2).blk t).view.emb y 1) (((cfg1.win 2).blk t).view.emb y 2)
  rw [hy]
  refine dist_tile_entry (V c main_v0) _ _ _ _ _ _ _ (fun d => ?_) (fun d => ?_)
  · -- the first block's row (y 1) is the array's row (row tile)·512 + (y 1) of the tile's batch
    show V c main_v0 (((cfg1.win 0).blk t).view.emb (ix3 (0 : Fin 1) ⟨(y 1).val, (y 1).isLt⟩ d)) = _
    refine congrArg (V c main_v0) (funext fun a => Fin.ext ?_)
    match a with
    | ⟨0, _⟩ =>
      show win1_0.index t (0 : Fin 3) * 1 + 1 * 0 = win1_2.index t (0 : Fin 3) * 1 + 1 * (y 0).val
      have h : (y 0).val < 1 := (y 0).isLt
      omega
    | ⟨1, _⟩ =>
      show win1_0.index t (1 : Fin 3) * 512 + 1 * (y 1).val = win1_2.index t (1 : Fin 3) * 512 + 1 * (y 1).val
      omega
    | ⟨2, _⟩ =>
      show win1_0.index t (2 : Fin 3) * 128 + 1 * d.val = d.val
      omega
  · -- the second block's row (y 2) is the array's row (column tile)·512 + (y 2) of the tile's batch
    show V c main_v0 (((cfg1.win 1).blk t).view.emb (ix3 (0 : Fin 1) ⟨(y 2).val, (y 2).isLt⟩ d)) = _
    refine congrArg (V c main_v0) (funext fun a => Fin.ext ?_)
    match a with
    | ⟨0, _⟩ =>
      show win1_1.index t (0 : Fin 3) * 1 + 1 * 0 = win1_2.index t (0 : Fin 3) * 1 + 1 * (y 0).val
      have h : (y 0).val < 1 := (y 0).isLt
      omega
    | ⟨1, _⟩ =>
      show win1_1.index t (1 : Fin 3) * 512 + 1 * (y 2).val = win1_2.index t (2 : Fin 3) * 512 + 1 * (y 2).val
      omega
    | ⟨2, _⟩ =>
      show win1_1.index t (2 : Fin 3) * 128 + 1 * d.val = d.val
      omega

/-- An index of the table is in point t's tile iff each coordinate is in the tile's range on its axis. -/
theorem dist_mem_tile (t : Fin cfg1.N) (i : S4x2048x2048.Idx) :
    i ∈ ((cfg1.win 2).blk t).view.set ↔ ∀ a : Fin 3, win1_2.index t a * S1x512x512.size a ≤ (i a).val ∧ (i a).val < win1_2.index t a * S1x512x512.size a + S1x512x512.size a := by
  show i ∈ ((View.whole main_v1).slice (win1_2.rect t)).set ↔ _
  rw [View.set_slice_whole, Rect.mem_set_unit]
  exact Iff.rfl

/-- Every entry of the table is in the tile of the point (batch, row / 512, column / 512), and every point writes its tile back. -/
theorem dist_tiles_cover (i : S4x2048x2048.Idx) : ∃ t : Fin cfg1.N, (cfg1.win 2).flush t = true ∧ i ∈ ((cfg1.win 2).blk t).view.set := by
  have h0 : (i 0).val < 4 := (i 0).isLt
  have h1 : (i 1).val < 2048 := (i 1).isLt
  have h2 : (i 2).val < 2048 := (i 2).isLt
  have hN : cfg1.N = 64 := N_1
  have ht : (i 0).val * 16 + (i 1).val / 512 * 4 + (i 2).val / 512 < cfg1.N := by rw [hN]; omega
  obtain ⟨e20, e21, e22, -⟩ := dist_tile_of_point ⟨(i 0).val * 16 + (i 1).val / 512 * 4 + (i 2).val / 512, ht⟩
  refine ⟨⟨(i 0).val * 16 + (i 1).val / 512 * 4 + (i 2).val / 512, ht⟩, flush1_2 _, ?_⟩
  rw [dist_mem_tile]
  intro a
  match a with
  | ⟨0, _⟩ =>
    show win1_2.index ⟨(i 0).val * 16 + (i 1).val / 512 * 4 + (i 2).val / 512, ht⟩ (0 : Fin 3) * 1 ≤ (i 0).val
      ∧ (i 0).val < win1_2.index ⟨(i 0).val * 16 + (i 1).val / 512 * 4 + (i 2).val / 512, ht⟩ (0 : Fin 3) * 1 + 1
    rw [e20]
    show ((i 0).val * 16 + (i 1).val / 512 * 4 + (i 2).val / 512) / 16 * 1 ≤ (i 0).val ∧ (i 0).val < ((i 0).val * 16 + (i 1).val / 512 * 4 + (i 2).val / 512) / 16 * 1 + 1
    omega
  | ⟨1, _⟩ =>
    show win1_2.index ⟨(i 0).val * 16 + (i 1).val / 512 * 4 + (i 2).val / 512, ht⟩ (1 : Fin 3) * 512 ≤ (i 1).val
      ∧ (i 1).val < win1_2.index ⟨(i 0).val * 16 + (i 1).val / 512 * 4 + (i 2).val / 512, ht⟩ (1 : Fin 3) * 512 + 512
    rw [e21]
    show ((i 0).val * 16 + (i 1).val / 512 * 4 + (i 2).val / 512) / 4 % 4 * 512 ≤ (i 1).val ∧ (i 1).val < ((i 0).val * 16 + (i 1).val / 512 * 4 + (i 2).val / 512) / 4 % 4 * 512 + 512
    omega
  | ⟨2, _⟩ =>
    show win1_2.index ⟨(i 0).val * 16 + (i 1).val / 512 * 4 + (i 2).val / 512, ht⟩ (2 : Fin 3) * 512 ≤ (i 2).val
      ∧ (i 2).val < win1_2.index ⟨(i 0).val * 16 + (i 1).val / 512 * 4 + (i 2).val / 512, ht⟩ (2 : Fin 3) * 512 + 512
    rw [e22]
    show ((i 0).val * 16 + (i 1).val / 512 * 4 + (i 2).val / 512) % 4 * 512 ≤ (i 2).val ∧ (i 2).val < ((i 0).val * 16 + (i 1).val / 512 * 4 + (i 2).val / 512) % 4 * 512 + 512
    omega

/-- after the second launch its output array holds the distance table of the projected embeddings as the launch found them -/
theorem final1 (V : (c : Dev nD) → (b : Ref sig .tc) → Buf (Elt Ideal) ((c : Thread nD τ).loc b)) (c : Dev nD) :
    (dat1 V c).arrAt 2 cfg1.N = Cert.Spec.dist (V c main_v0) :=
  (dat1 V c).arrAt_eq_of_cover 2 (Cert.Spec.dist (V c main_v0)) (fun t _ => dist_flushed_eq V c t) dist_tiles_cover

end Cert.KernelIdeal.Val

end
-- ==== Proof.KernelValue.lean ====
/-
  The idealized kernel's run with its two results named by the specification.

  The first launch leaves the linear map of the two arguments in the projected embeddings' array; the second launch
  is entered from those contents and leaves the distance table of that array's contents in its output; the
  arguments are never written.
-/
import proofs.«114774_j16681652977790_1_alg».proof.Proof.MainRun
import proofs.«114774_j16681652977790_1_alg».proof.Proof.Blocks0
import proofs.«114774_j16681652977790_1_alg».proof.Proof.Blocks1
import proofs.«114774_j16681652977790_1_alg».proof.Proof.Spec

noncomputable section

namespace Cert.KernelIdeal.Val

open Idealize.ShloMosaic Idealize.ShloMosaic.TcCoe Idealize.SL.Sem Cert.KernelIdeal Cert.KernelIdeal.Gen Cert.KernelIdeal.Fr

/-- The contents the second launch finds in the projected embeddings' array are the linear map of the arguments. -/
theorem entry1_main_v0 (m : (ℓ : Loc nD τ sig) → Buf (Elt Ideal) ℓ) (c : Dev nD) :
    V1 m c main_v0 = Cert.Spec.dep (m ((c.tc : Thread nD τ).loc main_arg0)) (m ((c.tc : Thread nD τ).loc main_arg1)) :=
  (W1_self m c).trans (final0 (V0 m) c)

/-- Every weakly fair execution of the idealized kernel's @main ends with the projected embeddings at the linear map
    of the arguments, the distance table at the pairwise squared distances of that, and the arguments as launched. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.Spec.dep (m ((c.tc : Thread nD τ).loc main_arg0)) (m ((c.tc : Thread nD τ).loc main_arg1))
      ∧ r.2.mem ((c.tc : Thread nD τ).loc main_v1) = Cert.Spec.dist (Cert.Spec.dep (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans (final0 (V0 m) c),
       (h c).2.1.trans ((final1 (V1 m) c).trans (congrArg Cert.Spec.dist (entry1_main_v0 m c))),
       (h c).2.2.1, (h c).2.2.2⟩)
    (run_all m ρ)

end Cert.KernelIdeal.Val

end
-- ==== Proof.RefValue.lean ====
/-
  The reference's two results as the specification's functions of the arguments.

  The first result is a contraction of the two arguments over the last axis of each: read at (b, l, d) it is the sum
  over e of emb[b, l, e] · W[d, e], the specification's linear map. The second result is assembled from that array y
  alone: the row sums of y·y broadcast along each of the two row axes and added, minus the constant 2 times the
  batched contraction of y with itself over the last axis. Read at (b, i, j) the two broadcasts select rows i and j,
  the initial value 0 of the row sum drops by 0 + s = s, and what remains is the specification's distance entry,
  term for term.
-/
import proofs.«114774_j16681652977790_1_alg».proof.Proof.Gen.ReferenceIdeal.Run
import proofs.«114774_j16681652977790_1_alg».proof.Proof.Gen.ReferenceIdeal.Read
import proofs.«114774_j16681652977790_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-! ## The operands' indices at an index given by its coordinates -/

/-- The contraction's left operand at output (b, l, d), term e, is read at (b, l, e). -/
theorem lidx_v0 (b : Fin 4) (l : Fin 2048) (d : Fin 128) (e : Fin 512) :
    lidx_main_v0 (ix3 b l d) e = ix3 b l e :=
  funext fun a => Fin.ext (by match a with | ⟨0, _⟩ => rfl | ⟨1, _⟩ => rfl | ⟨2, _⟩ => rfl)

/-- The contraction's right operand at output (b, l, d), term e, is read at (d, e). -/
theorem ridx_v0 (b : Fin 4) (l : Fin 2048) (d : Fin 128) (e : Fin 512) :
    ridx_main_v0 (ix3 b l d) e = ix2 d e :=
  funext fun a => Fin.ext (by match a with | ⟨0, _⟩ => rfl | ⟨1, _⟩ => rfl)

/-- The row sum broadcast along the second row axis: at (b, i, j), term d, the summand is read at (b, i, d). -/
theorem idx_row (b : Fin 4) (i j : Fin 2048) (d : Fin 128) :
    idx_main_v2 (idx_main_v4 (idx_main_v6 (ix3 b i j))) d = ix3 b i d :=
  funext fun a => Fin.ext (by match a with | ⟨0, _⟩ => rfl | ⟨1, _⟩ => rfl | ⟨2, _⟩ => rfl)

/-- The row sum broadcast along the first row axis: at (b, i, j), term d, the summand is read at (b, j, d). -/
theorem idx_col (b : Fin 4) (i j : Fin 2048) (d : Fin 128) :
    idx_main_v2 (idx_main_v5 (idx_main_v7 (ix3 b i j))) d = ix3 b j d :=
  funext fun a => Fin.ext (by match a with | ⟨0, _⟩ => rfl | ⟨1, _⟩ => rfl | ⟨2, _⟩ => rfl)

/-- The batched contraction's left operand at (b, i, j), term d, is read at (b, i, d). -/
theorem lidx_v3 (b : Fin 4) (i j : Fin 2048) (d : Fin 128) :
    lidx_main_v3 (ix3 b i j) d = ix3 b i d :=
  funext fun a => Fin.ext (by match a with | ⟨0, _⟩ => rfl | ⟨1, _⟩ => rfl | ⟨2, _⟩ => rfl)

/-- The batched contraction's right operand at (b, i, j), term d, is read at (b, j, d). -/
theorem ridx_v3 (b : Fin 4) (i j : Fin 2048) (d : Fin 128) :
    ridx_main_v3 (ix3 b i j) d = ix3 b j d :=
  funext fun a => Fin.ext (by match a with | ⟨0, _⟩ => rfl | ⟨1, _⟩ => rfl | ⟨2, _⟩ => rfl)

/-! ## The two results -/

/-- the reference's first result is the linear map -/
theorem v0_eq (x0 : (⟨S4x2048x512, .f32⟩ : BufTy).Contents (Elt Ideal)) (x1 : (⟨S128x512, .f32⟩ : BufTy).Contents (Elt Ideal)) :
    val_main_v0 (F := Ideal) x0 x1 = Cert.Spec.dep x0 x1 := by
  funext i
  obtain ⟨b, l, d, rfl⟩ : ∃ b l d, i = ix3 b l d := ⟨_, _, _, eq_ix3 i⟩
  rw [val_main_v0_apply, Cert.Spec.dep_apply]
  simp only [lidx_v0, ridx_v0]
  rfl

/-- the reference's second result is the distance table of the linear map's result -/
theorem v11_eq (x0 : (⟨S4x2048x512, .f32⟩ : BufTy).Contents (Elt Ideal)) (x1 : (⟨S128x512, .f32⟩ : BufTy).Contents (Elt Ideal)) :
    val_main_v11 (F := Ideal) x0 x1 = Cert.Spec.dist (Cert.Spec.dep x0 x1) := by
  rw [← v0_eq]
  funext i
  obtain ⟨b, p, q, rfl⟩ : ∃ b p q, i = ix3 b p q := ⟨_, _, _, eq_ix3 i⟩
  rw [Cert.Spec.dist_apply]
  simp only [val_main_v11_apply, val_main_v8_apply, val_main_v10_apply, val_main_v6_apply, val_main_v7_apply,
    val_main_v4_apply, val_main_v5_apply, val_main_v2_apply, val_main_v1_apply, val_main_cst_apply,
    val_main_v9_apply, val_main_cst_0_apply, val_main_v3_apply,
    idx_row, idx_col, lidx_v3, ridx_v3,
    Ideal.ofBits_def, Ideal.mulf_def, Ideal.addf_def, Ideal.subf_def, Ideal.ofBits_zero_f32, zero_add]
  rfl

/-- the reference's run, its results named by the specification -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.Spec.dep (m ((c.tc : Thread nD τ).loc main_arg0)) (m ((c.tc : Thread nD τ).loc main_arg1))
      ∧ r.2.mem ((c.tc : Thread nD τ).loc main_v11) = Cert.Spec.dist (Cert.Spec.dep (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c =>
      ⟨(h c).1.trans ((val_main_v0_eq _ _).trans (v0_eq _ _)),
       (h c).2.1.trans ((val_main_v11_eq _ _).trans (v11_eq _ _)),
       (h c).2.2.1, (h c).2.2.2⟩)
    (Cert.ReferenceIdeal.Value.run (F := Ideal) m ρ)

end Cert.ReferenceIdeal.RefValue

end
-- ==== Proof.lean ====
/-
  The certificate's five claims.

  Both the kernel and its reading over the extended reals are two launches one after the other: a linear map of the
  sentence embeddings (one batch row per grid point) and the table of pairwise squared distances of its rows in the
  expanded form |u|² + |v|² − 2⟨u, v⟩ (one 512 × 512 tile per grid point, the row tile and the column tile read from
  the same array). Each launch is certified as a pipeline at any float instance, which gives the three frames: every
  execution terminates, nothing faults, no launch writes an argument. The idealization rewrote nothing, so there is
  nothing to preserve. Over the extended reals the kernel's two results are the specification's `dep` and `dist ∘ dep`
  of the arguments, tile by tile; the reference's einsum, row sums and batched inner products are the same two
  functions entry by entry: the same sums of the same products, added and subtracted in the same order, so no
  finiteness of the inputs is used.
-/
import proofs.«114774_j16681652977790_1_alg».proof.Defs
import proofs.«114774_j16681652977790_1_alg».proof.Proof.Gen.Kernel
import proofs.«114774_j16681652977790_1_alg».proof.Proof.Gen.KernelIdeal
import proofs.«114774_j16681652977790_1_alg».proof.Proof.Gen.ReferenceIdeal
import proofs.«114774_j16681652977790_1_alg».proof.Proof.Gen.Pre_finite_inputs
import proofs.«114774_j16681652977790_1_alg».proof.Proof.MainRunB
import proofs.«114774_j16681652977790_1_alg».proof.Proof.MainRun
import proofs.«114774_j16681652977790_1_alg».proof.Proof.KernelValue
import proofs.«114774_j16681652977790_1_alg».proof.Proof.RefValue

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.RefValue.run_spec m ρ)

/-- From memories agreeing on the arguments both programs end at the specification's two functions of them. -/
theorem algebraic : Cert.algebraic_KernelIdeal_ReferenceIdeal := by
  intro m ρ m' ρ' _ hagree
  refine ⟨_, _, Cert.KernelIdeal.Val.run_spec m ρ, ?_⟩
  refine (θ_run Cert.ReferenceIdeal.defs _ _).mono (fun _ h c => ?_) (Cert.ReferenceIdeal.RefValue.run_spec m' ρ')
  refine ⟨(h c).1.trans ?_, (h c).2.1.trans ?_, (h c).2.2.1, (h c).2.2.2⟩
  · rw [(hagree c).1, (hagree c).2]
  · rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
